-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S512x4096 : Shape := ⟨2, ![512, 4096]⟩
abbrev S4096x512 : Shape := ⟨2, ![4096, 512]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x4096x4096 .f32) (main_arg1 : FVec F S512x4096 .f32) (main_arg2 : FVec F S4096x512 .f32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x4096x4096 : Shape := ⟨3, ![4, 4096, 4096]⟩
abbrev S512x4096 : Shape := ⟨2, ![512, 4096]⟩
abbrev S4096x512 : Shape := ⟨2, ![4096, 512]⟩
abbrev S4096 : Shape := ⟨1, ![4096]⟩
abbrev S1x4096 : Shape := ⟨2, ![1, 4096]⟩
abbrev S1x256x4096 : Shape := ⟨3, ![1, 256, 4096]⟩
abbrev S256x4096 : Shape := ⟨2, ![256, 4096]⟩
abbrev S256x512 : Shape := ⟨2, ![256, 512]⟩
abbrev S128x512 : Shape := ⟨2, ![128, 512]⟩
abbrev S512 : Shape := ⟨1, ![512]⟩
abbrev S1x512 : Shape := ⟨2, ![1, 512]⟩
abbrev S128x4096 : Shape := ⟨2, ![128, 4096]⟩
abbrev S1x128x4096 : Shape := ⟨3, ![1, 128, 4096]⟩

abbrev nBuf : Space → Nat
  | .hbm => 10
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S512x4096, .f32⟩
  | .hbm, ⟨2, _⟩ => ⟨S4096x512, .f32⟩
  | .hbm, ⟨3, _⟩ => ⟨S4096, .f32⟩
  | .hbm, ⟨4, _⟩ => ⟨S4096x512, .f32⟩
  | .hbm, ⟨5, _⟩ => ⟨S4096x512, .bf16⟩
  | .hbm, ⟨6, _⟩ => ⟨S512x4096, .f32⟩
  | .hbm, ⟨7, _⟩ => ⟨S512x4096, .bf16⟩
  | .hbm, ⟨8, _⟩ => ⟨S1x4096, .f32⟩
  | .hbm, ⟨9, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096x512, .bf16⟩
  | .local _ .vmem, ⟨3, _⟩ => ⟨S512x4096, .bf16⟩
  | .local _ .vmem, ⟨4, _⟩ => ⟨S1x4096, .f32⟩
  | .local _ .vmem, ⟨5, _⟩ => ⟨S1x256x4096, .f32⟩
  | .local _ .vmem, ⟨6, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x4096_S4096x512_1_0 : S512x4096.Transposes [1, 0] S4096x512
  bitsLt_bf16_f32 : FTy.bits .bf16 < FTy.bits .f32
  transposes_S4096x512_S512x4096_1_0 : S4096x512.Transposes [1, 0] S512x4096
  shapeCasts_S4096_S1x4096 : S4096.ShapeCasts S1x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S256x512_o0_0_S128x512 : S256x512.Slices ![0, 0] S128x512
  reduces_S128x512_S512 : S128x512.Reduces [0] S512
  shapeCasts_S512_S1x512 : S512.ShapeCasts S1x512
  broadcasts_S1x512_S128x512 : S1x512.Broadcasts S128x512
  broadcasts_S1x4096_S128x4096 : S1x4096.Broadcasts S128x4096
  inb_S1x256x4096_S1x128x4096_0_0_0 : ∀ a, (![0, 0, 0] : Fin 3 → Nat) a + S1x128x4096.size a ≤ S1x256x4096.size a
  h_S1x128x4096 : 0 < S1x128x4096.numel
  shapeCasts_S1x128x4096_S128x4096 : S1x128x4096.ShapeCasts S128x4096
  shapeCasts_S128x4096_S1x128x4096 : S128x4096.ShapeCasts S1x128x4096
  slices_S256x512_o128_0_S128x512 : S256x512.Slices ![128, 0] S128x512
  inb_S1x256x4096_S1x128x4096_0_128_0 : ∀ a, (![0, 128, 0] : Fin 3 → Nat) a + S1x128x4096.size a ≤ S1x256x4096.size a
  dot_S256x4096_S4096x512_S256x512_1_0_0_1_n_n_wf : DotDims.WF S256x4096 S4096x512 S256x512 [1] [0] [0] [1] [] []
  dot_S128x512_S512x4096_S128x4096_1_0_0_1_n_n_wf : DotDims.WF S128x512 S512x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S4x4096x4096.size a
  hwx0_4 : ∀ i : grid0.Coords, EltTy.bits .f32 = 32 ∨ (Rect.block (s := S4x4096x4096) S1x256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S512x4096 : Shape := ⟨2, ![512, 4096]⟩
abbrev S4096x512 : Shape := ⟨2, ![4096, 512]⟩
abbrev S4096 : Shape := ⟨1, ![4096]⟩
abbrev S4x4096x512 : Shape := ⟨3, ![4, 4096, 512]⟩
abbrev S4x512x4096 : Shape := ⟨3, ![4, 512, 4096]⟩
abbrev S4x512x32x128 : Shape := ⟨4, ![4, 512, 32, 128]⟩
abbrev S_ : Shape := ⟨0, ![]⟩
abbrev S4x512x32 : Shape := ⟨3, ![4, 512, 32]⟩
abbrev S4x512x32x1 : Shape := ⟨4, ![4, 512, 32, 1]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S512x4096, .f32⟩
  | .hbm, ⟨2, _⟩ => ⟨S4096x512, .f32⟩
  | .hbm, ⟨3, _⟩ => ⟨S4096, .f32⟩
  | .hbm, ⟨4, _⟩ => ⟨S4x4096x512, .f32⟩
  | .hbm, ⟨5, _⟩ => ⟨S4x512x4096, .f32⟩
  | .hbm, ⟨6, _⟩ => ⟨S4x512x32x128, .f32⟩
  | .hbm, ⟨7, _⟩ => ⟨S_, .f32⟩
  | .hbm, ⟨8, _⟩ => ⟨S4x512x32, .f32⟩
  | .hbm, ⟨9, _⟩ => ⟨S4x512x32x1, .f32⟩
  | .hbm, ⟨10, _⟩ => ⟨S_, .f32⟩
  | .hbm, ⟨11, _⟩ => ⟨S4x512x32, .f32⟩
  | .hbm, ⟨12, _⟩ => ⟨S4x512x32x1, .f32⟩
  | .hbm, ⟨13, _⟩ => ⟨S4x512x32x1, .f32⟩
  | .hbm, ⟨14, _⟩ => ⟨S_, .f32⟩
  | .hbm, ⟨15, _⟩ => ⟨S4x512x32x1, .f32⟩
  | .hbm, ⟨16, _⟩ => ⟨S4x512x32x1, .f32⟩
  | .hbm, ⟨17, _⟩ => ⟨S_, .f32⟩
  | .hbm, ⟨18, _⟩ => ⟨S4x512x32x1, .f32⟩
  | .hbm, ⟨19, _⟩ => ⟨S4x512x32x1, .f32⟩
  | .hbm, ⟨20, _⟩ => ⟨S4x512x32x128, .f32⟩
  | .hbm, ⟨21, _⟩ => ⟨S4x512x32x128, .f32⟩
  | .hbm, ⟨22, _⟩ => ⟨S4x512x32x128, .f32⟩
  | .hbm, ⟨23, _⟩ => ⟨S4x512x32x128, .f32⟩
  | .hbm, ⟨24, _⟩ => ⟨S4x512x32x128, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S4x512x32x128, .f32⟩
  | .hbm, ⟨29, _⟩ => ⟨S4x512x32x128, .f32⟩
  | .hbm, ⟨30, _⟩ => ⟨S_, .f32⟩
  | .hbm, ⟨31, _⟩ => ⟨S4x512x32x128, .f32⟩
  | .hbm, ⟨32, _⟩ => ⟨S4x512x32x128, .f32⟩
  | .hbm, ⟨33, _⟩ => ⟨S4x512x32x128, .f32⟩
  | .hbm, ⟨34, _⟩ => ⟨S4x512x32x128, .f32⟩
  | .hbm, ⟨35, _⟩ => ⟨S4x512x32x128, .f32⟩
  | .hbm, ⟨36, _⟩ => ⟨S4x512x32x128, .f32⟩
  | .hbm, ⟨37, _⟩ => ⟨S4x512x4096, .f32⟩
  | .hbm, ⟨38, _⟩ => ⟨S4x4096x512, .f32⟩
  | .hbm, ⟨39, _⟩ => ⟨S4x4096x4096, .f32⟩
  | .hbm, ⟨40, _⟩ => ⟨S1x1x4096, .f32⟩
  | .hbm, ⟨41, _⟩ => ⟨S4x4096x4096, .f32⟩
  | .hbm, ⟨42, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  transposes_S4x4096x512_S4x512x4096_0_2_1 : S4x4096x512.Transposes [0, 2, 1] S4x512x4096
  shapeCasts_S4x512x4096_S4x512x32x128 : S4x512x4096.ShapeCasts S4x512x32x128
  reducesTo_S4x512x32x128_S4x512x32_d3 : S4x512x32x128.ReducesTo [3] S4x512x32
  h_S_ : 0 < S_.numel
  bcast_S4x512x32_S4x512x32x1_0_1_2 : S4x512x32.BroadcastsInDim S4x512x32x1 (![0, 1, 2] : Fin 3 → Fin S4x512x32x1.rank)
  bcast_S_S4x512x32x1 : S_.BroadcastsInDim S4x512x32x1 (![] : Fin 0 → Fin S4x512x32x1.rank)
  bcast_S4x512x32x1_S4x512x32x128_0_1_2_3 : S4x512x32x1.BroadcastsInDim S4x512x32x128 (![0, 1, 2, 3] : Fin 4 → Fin S4x512x32x128.rank)
  bcast_S_S4x512x32x128 : S_.BroadcastsInDim S4x512x32x128 (![] : Fin 0 → Fin S4x512x32x128.rank)
  shapeCasts_S4x512x32x128_S4x512x4096 : S4x512x32x128.ShapeCasts S4x512x4096
  transposes_S4x512x4096_S4x4096x512_0_2_1 : S4x512x4096.Transposes [0, 2, 1] S4x4096x512
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S512x4096_S4x4096x512_2_1_01_0_n_n_wf : DotDims.WF S4x4096x4096 S512x4096 S4x4096x512 [2] [1] [0, 1] [0] [] []
  dot_S4x4096x512_S4096x512_S4x4096x4096_2_1_01_0_n_n_wf : DotDims.WF S4x4096x512 S4096x512 S4x4096x4096 [2] [1] [0, 1] [0] [] []

variable [Facts₀]

def dot_S4x4096x4096_S512x4096_S4x4096x512_2_1_01_0_n_n : DotDims S4x4096x4096 S512x4096 S4x4096x512 where
  lhsContracting := [2]
  rhsContracting := [1]
  lhsNonContracting := [0, 1]
  rhsNonContracting := [0]
  lhsBatch := []
  rhsBatch := []
  wf := dot_S4x4096x4096_S512x4096_S4x4096x512_2_1_01_0_n_n_wf
def dot_S4x4096x512_S4096x512_S4x4096x4096_2_1_01_0_n_n : DotDims S4x4096x512 S4096x512 S4x4096x4096 where
  lhsContracting := [2]
  rhsContracting := [1]
  lhsNonContracting := [0, 1]
  rhsNonContracting := [0]
  lhsBatch := []
  rhsBatch := []
  wf := dot_S4x4096x512_S4096x512_S4x4096x4096_2_1_01_0_n_n_wf

class Facts : Prop extends Facts₀ where

variable [Facts]
-- ==== Proof.Spec.lean ====
/-
  The mathematics both programs compute, over the extended reals, as one function of the four argument arrays.

  A batch of 4 sequences of 4096 tokens with 4096 features each is projected down to 512 channels,
  `y[b,s,r] = Σ_d x[b,s,d] · W_B[r,d]`. The tokens are cut into groups of 128 consecutive ones. Within a group and a
  channel the 128 values are quantized to four levels: with `lo` and `hi` the group's minimum and maximum and
  `step = max ((hi - lo) / 3, ε)`, a value `v` becomes `min 3 (max 0 (round ((v - lo) / step))) · step + lo`
  (rounding to nearest, ties to even). The result is projected up again,
  `out[b,s,o] = Σ_r yq[b,s,r] · W_A[o,r] + bias[o]`.

  Nothing here depends on how a program tiles the work: `groupTok s k` is the k-th token of the group token `s`
  lies in, `groupPos s` the place of `s` inside it.
-/
import Idealize.ShloMosaic.PureOps.Ideal.Laws
import Idealize.ShloMosaic.Lib.ValueIdx

noncomputable section

namespace Cert.GroupQuant

open Idealize.ShloMosaic Idealize.ShloMosaic.ValueIdx

/-- The k-th token of the group of 128 consecutive tokens that token `s` lies in. -/
def groupTok (s : Fin 4096) (k : Fin 128) : Fin 4096 :=
  ⟨s.val / 128 * 128 + k.val, by have := s.isLt; have := k.isLt; omega⟩

/-- The place of token `s` inside its group. -/
def groupPos (s : Fin 4096) : Fin 128 := ⟨s.val % 128, Nat.mod_lt _ (by decide)⟩

/-- The smallest of a group's 128 values (from +∞). -/
def lo (y : Fin 128 → EReal) : EReal :=
  (Finset.univ : Finset (Fin 128)).fold (FloatOps.minimumf (F := Ideal) (φ := .f32)) (Ideal.ofBits .f32 0x7F800000#32) y

/-- The largest of a group's 128 values (from -∞). -/
def hi (y : Fin 128 → EReal) : EReal :=
  (Finset.univ : Finset (Fin 128)).fold (FloatOps.maximumf (F := Ideal) (φ := .f32)) (Ideal.ofBits .f32 0xFF800000#32) y

/-- The quantization step of a group: a third of its range, but at least ε. -/
def step (y : Fin 128 → EReal) : EReal :=
  max (Ideal.div (hi y - lo y) (Ideal.ofBits .f32 0x40400000#32)) (Ideal.ofBits .f32 0x322BCC77#32)

/-- The k-th value of a group after quantization to the levels 0, 1, 2, 3 and back. -/
def deq (y : Fin 128 → EReal) (k : Fin 128) : EReal :=
  min (Ideal.ofBits .f32 0x40400000#32)
      (max (Ideal.ofBits .f32 0x00000000#32) (Ideal.liftRound Ideal.roundHalfEven (Ideal.div (y k - lo y) (step y))))
    * step y + lo y

/-- The down-projection: token `s` of sequence `b` on channel `r`. -/
def down (x : (⟨3, ![4, 4096, 4096]⟩ : Shape).Idx → EReal) (wb : (⟨2, ![512, 4096]⟩ : Shape).Idx → EReal)
    (b : Fin 4) (s : Fin 4096) (r : Fin 512) : EReal :=
  ∑ d : Fin 4096, x (ix3 b s d) * wb (ix2 r d)

/-- The whole computation, entry by entry. -/
def out (x : (⟨3, ![4, 4096, 4096]⟩ : Shape).Idx → EReal) (wb : (⟨2, ![512, 4096]⟩ : Shape).Idx → EReal)
    (wa : (⟨2, ![4096, 512]⟩ : Shape).Idx → EReal) (bias : (⟨1, ![4096]⟩ : Shape).Idx → EReal) :
    (⟨3, ![4, 4096, 4096]⟩ : Shape).Idx → EReal := fun i =>
  (∑ r : Fin 512, deq (fun k => down x wb (i 0) (groupTok (i 1) k) r) (groupPos (i 1)) * wa (ix2 (i 2) r))
    + bias (ix1 (i 2))

/-- The integer 3, converted to a float, is the float 3.0. -/
theorem three_eq : (((3#32 : BitVec 32).toInt : ℝ) : EReal) = Ideal.ofBits .f32 0x40400000#32 := by
  have h : (3#32 : BitVec 32).toInt = 3 := by decide
  rw [h]
  simp [Ideal.ofBits, Ideal.ieee, -EReal.coe_mul]; norm_num

/-- The integer 0, converted to a float, is the float +0.0. -/
theorem zero_eq : (((0#32 : BitVec 32).toInt : ℝ) : EReal) = Ideal.ofBits .f32 0x00000000#32 := by
  have h : (0#32 : BitVec 32).toInt = 0 := by decide
  rw [h]
  simp [Ideal.ofBits, Ideal.ieee]

end Cert.GroupQuant

end
-- ==== Proof.KernelDots.lean ====
/-
  The kernel's two matrix products, read at one entry as plain sums over the extended reals.

  The down-projection multiplies a 256 × 4096 block of tokens by the 4096 × 512 transposed weight; the up-projection
  multiplies a group's 128 × 512 quantized values by the 512 × 4096 transposed weight. Each accumulates into zeros, so
  entry (p, r) is `Σ_k a[p,k] · b[k,r]`: the contraction runs over the left operand's second axis and the right
  operand's first.
-/
import proofs.«176930_j23596550324371_1_alg».proof.Proof.Gen.KernelIdeal
import Idealize.ShloMosaic.PureOps.Ideal.Laws
import Idealize.ShloMosaic.Lib.ValueIdx

noncomputable section

namespace Cert.KernelBody

open Idealize.ShloMosaic Idealize.ShloMosaic.ValueIdx Cert.KernelIdeal Cert.KernelIdeal.Gen

/-! ## The down-projection's product -/

theorem downDot_lhs_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem downDot_lhs_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem downDot_rhs_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem downDot_rhs_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Entry (p, r) of the block's down-projection is the sum over the 4096 features. -/
theorem downDot_apply (a : FVec Ideal S256x4096 .bf16) (b : FVec Ideal S4096x512 .bf16) (p : Fin 256) (r : Fin 512) :
    matmul dot_S256x4096_S4096x512_S256x512_1_0_0_1_n_n none a b (constant (F := Ideal) S256x512 .f32 0x00000000#32) (ix2 p r)
      = ∑ d : Fin 4096, a (ix2 p d) * b (ix2 d r) := by
  simp only [matmul]
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 p r) ((contrEquiv1 dot_S256x4096_S4096x512_S256x512_1_0_0_1_n_n 4096 rfl rfl).symm k) = ix2 p k := funext fun x => Fin.ext (by
    match x with
    | ⟨0, _⟩ => exact downDot_lhs_0 _ _
    | ⟨1, _⟩ => exact (downDot_lhs_1 _ _).trans hk)
  have er : dot_S256x4096_S4096x512_S256x512_1_0_0_1_n_n.rhsIdx (ix2 p r) ((contrEquiv1 dot_S256x4096_S4096x512_S256x512_1_0_0_1_n_n 4096 rfl rfl).symm k) = ix2 k r := funext fun x => Fin.ext (by
    match x with
    | ⟨0, _⟩ => exact (downDot_rhs_0 _ _).trans hk
    | ⟨1, _⟩ => exact downDot_rhs_1 _ _)
  rw [el, er]

/-! ## The up-projection's product -/

theorem upDot_lhs_0 (i : S128x4096.Idx) (q : dot_S128x512_S512x4096_S128x4096_1_0_0_1_n_n.contr.Idx) :
    (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl
theorem upDot_lhs_1 (i : S128x4096.Idx) (q : dot_S128x512_S512x4096_S128x4096_1_0_0_1_n_n.contr.Idx) :
    (dot_S128x512_S512x4096_S128x4096_1_0_0_1_n_n.lhsIdx i q 1).val = (q ⟨0, by decide⟩).val :=
  dot_S128x512_S512x4096_S128x4096_1_0_0_1_n_n.lhsIdx_val_of_single rfl i q
theorem upDot_rhs_0 (i : S128x4096.Idx) (q : dot_S128x512_S512x4096_S128x4096_1_0_0_1_n_n.contr.Idx) :
    (dot_S128x512_S512x4096_S128x4096_1_0_0_1_n_n.rhsIdx i q 0).val = (q ⟨0, by decide⟩).val :=
  dot_S128x512_S512x4096_S128x4096_1_0_0_1_n_n.rhsIdx_val_of_single rfl i q
theorem upDot_rhs_1 (i : S128x4096.Idx) (q : dot_S128x512_S512x4096_S128x4096_1_0_0_1_n_n.contr.Idx) :
    (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-- Entry (q, o) of a group's up-projection is the sum over the 512 channels. -/
theorem upDot_apply (a : FVec Ideal S128x512 .bf16) (b : FVec Ideal S512x4096 .bf16) (q : Fin 128) (o : Fin 4096) :
    matmul dot_S128x512_S512x4096_S128x4096_1_0_0_1_n_n none a b (constant (F := Ideal) S128x4096 .f32 0x00000000#32) (ix2 q o)
      = ∑ r : Fin 512, a (ix2 q r) * b (ix2 r o) := by
  simp only [matmul]
  rw [Ideal.matmul_constant_zero_apply, ← Equiv.sum_comp (contrEquiv1 dot_S128x512_S512x4096_S128x4096_1_0_0_1_n_n 512 rfl rfl).symm]
  refine Finset.sum_congr rfl fun k _ => ?_
  have hk := contrEquiv1_symm_val dot_S128x512_S512x4096_S128x4096_1_0_0_1_n_n 512 rfl rfl k
  have el : dot_S128x512_S512x4096_S128x4096_1_0_0_1_n_n.lhsIdx (ix2 q o) ((contrEquiv1 dot_S128x512_S512x4096_S128x4096_1_0_0_1_n_n 512 rfl rfl).symm k) = ix2 q k := funext fun x => Fin.ext (by
    match x with
    | ⟨0, _⟩ => exact upDot_lhs_0 _ _
    | ⟨1, _⟩ => exact (upDot_lhs_1 _ _).trans hk)
  have er : dot_S128x512_S512x4096_S128x4096_1_0_0_1_n_n.rhsIdx (ix2 q o) ((contrEquiv1 dot_S128x512_S512x4096_S128x4096_1_0_0_1_n_n 512 rfl rfl).symm k) = ix2 k o := funext fun x => Fin.ext (by
    match x with
    | ⟨0, _⟩ => exact (upDot_rhs_0 _ _).trans hk
    | ⟨1, _⟩ => exact upDot_rhs_1 _ _)
  rw [el, er]

end Cert.KernelBody

end
-- ==== Proof.KernelBody.lean ====
/-
  One group of 128 tokens inside the kernel's block: the layout steps and the two column reductions, read at an entry.
-/
import proofs.«176930_j23596550324371_1_alg».proof.Proof.Spec
import proofs.«176930_j23596550324371_1_alg».proof.Proof.KernelDots
import proofs.«176930_j23596550324371_1_alg».proof.Proof.Gen.KernelIdeal.Skeleton
import Idealize.ShloMosaic.Lib.Pipeline.Value

noncomputable section

namespace Cert.KernelBody

open Idealize.ShloMosaic Idealize.ShloMosaic.ValueIdx Cert.KernelIdeal Cert.KernelIdeal.Gen Cert.GroupQuant

/-- Column r's minimum over the group's 128 rows. -/
theorem colMin_apply (yg : FVec Ideal S128x512 .f32) (r : Fin 512) :
    multiReduction .minimumf [0] S512 yg 0x7F800000#32 reduces_S128x512_S512 (.inl rfl) rfl (ix1 r)
      = lo (fun k => yg (ix2 k r)) :=
  (multiReduction_minimumf_eq_fold yg 0x7F800000#32 reduces_S128x512_S512 (.inl rfl) rfl (ix1 r)).trans
    ((reduces_S128x512_S512.fold_filter_drop_single _ _ yg (ix1 r)).trans (by
      unfold lo; congr 1; funext k
      exact congrArg yg (funext fun a => Fin.ext (by match a with | ⟨0, _⟩ => rfl | ⟨1, _⟩ => rfl))))

/-- Column r's maximum over the group's 128 rows. -/
theorem colMax_apply (yg : FVec Ideal S128x512 .f32) (r : Fin 512) :
    multiReduction .maximumf [0] S512 yg 0xFF800000#32 reduces_S128x512_S512 (.inl rfl) rfl (ix1 r)
      = hi (fun k => yg (ix2 k r)) :=
  (multiReduction_maximumf_eq_fold yg 0xFF800000#32 reduces_S128x512_S512 (.inl rfl) rfl (ix1 r)).trans
    ((reduces_S128x512_S512.fold_filter_drop_single _ _ yg (ix1 r)).trans (by
      unfold hi; congr 1; funext k
      exact congrArg yg (funext fun a => Fin.ext (by match a with | ⟨0, _⟩ => rfl | ⟨1, _⟩ => rfl))))

/-- A vector of 512 column values laid out as one row. -/
theorem row_apply (v : FVec Ideal S512 .f32) (r : Fin 512) :
    shapeCast S1x512 v shapeCasts_S512_S1x512 (ix2 0 r) = v (ix1 r) := by
  refine (shapeCast_addUnit_apply _ v shapeCasts_S512_S1x512 (ix2 0 r)).trans (congrArg v ?_)
  funext a; match a with | ⟨0, _⟩ => rfl

/-- One row of column values repeated down the group's 128 rows. -/
theorem rows_apply (v : FVec Ideal S1x512 .f32) (q : Fin 128) (r : Fin 512) :
    broadcastTo S128x512 v broadcasts_S1x512_S128x512 (ix2 q r) = v (ix2 0 r) :=
  broadcastTo_apply v broadcasts_S1x512_S128x512 (ix2 q r) (ix2 0 r) (fun a => match a with
    | ⟨0, _⟩ => rfl
    | ⟨1, _⟩ => rfl)

/-- The bias row repeated down the group's 128 rows. -/
theorem biasRows_apply (v : FVec Ideal S1x4096 .f32) (q : Fin 128) (o : Fin 4096) :
    broadcastTo S128x4096 v broadcasts_S1x4096_S128x4096 (ix2 q o) = v (ix2 0 o) :=
  broadcastTo_apply v broadcasts_S1x4096_S128x4096 (ix2 q o) (ix2 0 o) (fun a => match a with
    | ⟨0, _⟩ => rfl
    | ⟨1, _⟩ => rfl)

/-! ## One group's quantization, column by column -/

/-- The row of the group's column minima. -/
def minRow (yg : FVec Ideal S128x512 .f32) : FVec Ideal S1x512 .f32 :=
  shapeCast S1x512 (multiReduction .minimumf [0] S512 yg 0x7F800000#32 reduces_S128x512_S512 (.inl rfl) rfl) shapeCasts_S512_S1x512

/-- The row of the group's column maxima. -/
def maxRow (yg : FVec Ideal S128x512 .f32) : FVec Ideal S1x512 .f32 :=
  shapeCast S1x512 (multiReduction .maximumf [0] S512 yg 0xFF800000#32 reduces_S128x512_S512 (.inl rfl) rfl) shapeCasts_S512_S1x512

theorem minRow_apply (yg : FVec Ideal S128x512 .f32) (r : Fin 512) : minRow yg (ix2 0 r) = lo (fun k => yg (ix2 k r)) :=
  (row_apply _ r).trans (colMin_apply yg r)

theorem maxRow_apply (yg : FVec Ideal S128x512 .f32) (r : Fin 512) : maxRow yg (ix2 0 r) = hi (fun k => yg (ix2 k r)) :=
  (row_apply _ r).trans (colMax_apply yg r)

/-- The row of the group's quantization steps: a third of each column's range, at least ε. -/
def stepRow (yg : FVec Ideal S128x512 .f32) : FVec Ideal S1x512 .f32 :=
  maximumf (divf (subf (maxRow yg) (minRow yg)) (broadcast S1x512 (Scalar.ofBits .f32 0x40400000#32)))
    (broadcast S1x512 (Scalar.ofBits .f32 0x322BCC77#32))

theorem stepRow_apply (yg : FVec Ideal S128x512 .f32) (r : Fin 512) : stepRow yg (ix2 0 r) = step (fun k => yg (ix2 k r)) := by
  show max (Ideal.div (maxRow yg (ix2 0 r) - minRow yg (ix2 0 r)) (Ideal.ofBits .f32 0x40400000#32)) (Ideal.ofBits .f32 0x322BCC77#32) = _
  rw [maxRow_apply, minRow_apply]
  rfl

/-- The group's values after quantization to four levels and back. -/
def deqRows (yg : FVec Ideal S128x512 .f32) : FVec Ideal S128x512 .f32 :=
  addf
    (mulf
      (minimumf (broadcast S128x512 (Scalar.ofBits .f32 0x40400000#32))
        (maximumf (broadcast S128x512 (Scalar.ofBits .f32 0x00000000#32))
          (roundeven (divf (subf yg (broadcastTo S128x512 (minRow yg) broadcasts_S1x512_S128x512))
            (broadcastTo S128x512 (stepRow yg) broadcasts_S1x512_S128x512)))))
      (broadcastTo S128x512 (stepRow yg) broadcasts_S1x512_S128x512))
    (broadcastTo S128x512 (minRow yg) broadcasts_S1x512_S128x512)

theorem deqRows_apply (yg : FVec Ideal S128x512 .f32) (q : Fin 128) (r : Fin 512) :
    deqRows yg (ix2 q r) = deq (fun k => yg (ix2 k r)) q := by
  show min (Ideal.ofBits .f32 0x40400000#32)
        (max (Ideal.ofBits .f32 0x00000000#32) (Ideal.liftRound Ideal.roundHalfEven
          (Ideal.div (yg (ix2 q r) - broadcastTo S128x512 (minRow yg) broadcasts_S1x512_S128x512 (ix2 q r))
            (broadcastTo S128x512 (stepRow yg) broadcasts_S1x512_S128x512 (ix2 q r)))))
      * broadcastTo S128x512 (stepRow yg) broadcasts_S1x512_S128x512 (ix2 q r)
      + broadcastTo S128x512 (minRow yg) broadcasts_S1x512_S128x512 (ix2 q r) = _
  rw [rows_apply, rows_apply, minRow_apply, stepRow_apply]
  rfl

/-- The group's output rows: the quantized values projected up, plus the bias. -/
def groupOut (yg : FVec Ideal S128x512 .f32) (w : FVec Ideal S512x4096 .bf16) (bias : FVec Ideal S1x4096 .f32) :
    FVec Ideal S128x4096 .f32 :=
  addf (matmul dot_S128x512_S512x4096_S128x4096_1_0_0_1_n_n none (truncf .bf16 (deqRows yg) bitsLt_bf16_f32) w (constant S128x4096 .f32 0x00000000#32))
    (broadcastTo S128x4096 bias broadcasts_S1x4096_S128x4096)

theorem groupOut_apply (yg : FVec Ideal S128x512 .f32) (w : FVec Ideal S512x4096 .bf16) (bias : FVec Ideal S1x4096 .f32)
    (q : Fin 128) (o : Fin 4096) :
    groupOut yg w bias (ix2 q o) = (∑ r : Fin 512, deq (fun k => yg (ix2 k r)) q * w (ix2 r o)) + bias (ix2 0 o) := by
  show matmul dot_S128x512_S512x4096_S128x4096_1_0_0_1_n_n none (truncf .bf16 (deqRows yg) bitsLt_bf16_f32) w (constant (F := Ideal) S128x4096 .f32 0x00000000#32) (ix2 q o)
      + broadcastTo S128x4096 bias broadcasts_S1x4096_S128x4096 (ix2 q o) = _
  rw [upDot_apply, biasRows_apply]
  refine congrArg (· + bias (ix2 0 o)) (Finset.sum_congr rfl fun r _ => ?_)
  show deqRows yg (ix2 q r) * w (ix2 r o) = _
  rw [deqRows_apply]

/-! ## The kernel's payloads are these -/

/-- The first group's payload: rows 0 to 127 of the block's down-projection. -/
theorem pay6_eq (v0 : Vec Ideal S1x256x4096 .f32) (v3 : Vec Ideal S4096x512 .bf16) (v6 : Vec Ideal S512x4096 .bf16) (v8 : Vec Ideal S1x4096 .f32) :
    k0_pay6 (F := Ideal) v0 v3 v6 v8
      = groupOut (extractStridedSlice S128x512 ![0, 0] (k0_pay3 v0 v3) slices_S256x512_o0_0_S128x512) (k0_pay4 v6) (k0_pay5 v8) := rfl

/-- The second group's payload: rows 128 to 255. -/
theorem pay2_eq (v5 : FVec Ideal S256x512 .f32) (v7 : FVec Ideal S512x4096 .bf16) (v9 : FVec Ideal S1x4096 .f32) :
    k0_pay2 (F := Ideal) v5 v7 v9
      = shapeCast S1x128x4096 (groupOut (extractStridedSlice S128x512 ![128, 0] v5 slices_S256x512_o128_0_S128x512) v7 v9)
          shapeCasts_S128x4096_S1x128x4096 := rfl

end Cert.KernelBody

end
-- ==== Proof.KernelBlock.lean ====
/-
  What the kernel's body leaves in its 256-token output block, as ONE function of the four input blocks.

  The block's rows fall into two groups of 128 consecutive tokens. Row p belongs to the group that starts at row
  `p / 128 · 128` and sits at place `p % 128` in it. The body writes the first group's rows and then the second
  group's; each written piece is this one function restricted to its rows.
-/
import proofs.«176930_j23596550324371_1_alg».proof.Proof.KernelBody
import proofs.«176930_j23596550324371_1_alg».proof.Proof.Gen.KernelIdeal.Frame

noncomputable section

namespace Cert.KernelBody

open Idealize.ShloMosaic Idealize.ShloMosaic.ValueIdx Cert.KernelIdeal Cert.KernelIdeal.Gen Cert.GroupQuant

/-- The k-th row of the group that row p of the block lies in. -/
def blockRow (p : Fin 256) (k : Fin 128) : Fin 256 :=
  ⟨p.val / 128 * 128 + k.val, by have := p.isLt; have := k.isLt; omega⟩

/-- The place of row p inside its group. -/
def blockPos (p : Fin 256) : Fin 128 := ⟨p.val % 128, Nat.mod_lt _ (by decide)⟩

/-- The block's output, entry by entry: the group's down-projected values quantized, projected up, plus the bias. -/
def blockOut (x0 : Vec Ideal S1x256x4096 .f32) (x1 : Vec Ideal S4096x512 .bf16) (x2 : Vec Ideal S512x4096 .bf16)
    (x3 : Vec Ideal S1x4096 .f32) : S1x256x4096.Idx → EReal := fun y =>
  (∑ r : Fin 512, deq (fun k => ∑ d : Fin 4096, x0 (ix3 0 (blockRow (y 1) k) d) * x1 (ix2 d r)) (blockPos (y 1))
      * x2 (ix2 r (y 2)))
    + x3 (ix2 0 (y 2))

/-- Row p of the block's down-projection, on channel r. -/
theorem pay3_apply (v0 : Vec Ideal S1x256x4096 .f32) (v3 : Vec Ideal S4096x512 .bf16) (p : Fin 256) (r : Fin 512) :
    k0_pay3 (F := Ideal) v0 v3 (ix2 p r) = ∑ d : Fin 4096, v0 (ix3 0 p d) * v3 (ix2 d r) := by
  show matmul dot_S256x4096_S4096x512_S256x512_1_0_0_1_n_n none (truncf .bf16 (shapeCast S256x4096 v0 shapeCasts_S1x256x4096_S256x4096) bitsLt_bf16_f32)
      (shapeCast S4096x512 v3 shapeCasts_S4096x512_S4096x512) (constant (F := Ideal) S256x512 .f32 0x00000000#32) (ix2 p r) = _
  rw [downDot_apply, shapeCast_self]
  refine Finset.sum_congr rfl fun d _ => ?_
  show shapeCast S256x4096 v0 shapeCasts_S1x256x4096_S256x4096 (ix2 p d) * v3 (ix2 d r) = _
  refine congrArg (· * v3 (ix2 d r)) ?_
  refine (shapeCast_dropUnit_apply _ v0 shapeCasts_S1x256x4096_S256x4096 (ix2 p d)).trans (congrArg v0 ?_)
  funext a; match a with | ⟨0, _⟩ => rfl | ⟨1, _⟩ => rfl | ⟨2, _⟩ => rfl

/-- Row k of the first group's slice of the down-projection. -/
theorem slice0_apply (v5 : FVec Ideal S256x512 .f32) (k : Fin 128) (r : Fin 512) :
    extractStridedSlice S128x512 ![0, 0] v5 slices_S256x512_o0_0_S128x512 (ix2 k r)
      = v5 (ix2 ⟨0 + k.val, by have := k.isLt; omega⟩ r) :=
  extractStridedSlice_apply _ v5 slices_S256x512_o0_0_S128x512 (ix2 k r) _ (fun a => match a with
    | ⟨0, _⟩ => rfl
    | ⟨1, _⟩ => (Nat.zero_add _).symm)

/-- Row k of the second group's slice of the down-projection. -/
theorem slice128_apply (v5 : FVec Ideal S256x512 .f32) (k : Fin 128) (r : Fin 512) :
    extractStridedSlice S128x512 ![128, 0] v5 slices_S256x512_o128_0_S128x512 (ix2 k r)
      = v5 (ix2 ⟨128 + k.val, by have := k.isLt; omega⟩ r) :=
  extractStridedSlice_apply _ v5 slices_S256x512_o128_0_S128x512 (ix2 k r) _ (fun a => match a with
    | ⟨0, _⟩ => rfl
    | ⟨1, _⟩ => (Nat.zero_add _).symm)

/-- A group that is rows `base` to `base + 127` of the block's down-projection (base 0 or 128) yields the block's
    output on those rows. -/
theorem groupOut_block (v0 : Vec Ideal S1x256x4096 .f32) (v3 : Vec Ideal S4096x512 .bf16) (v6 : Vec Ideal S512x4096 .bf16)
    (v8 : Vec Ideal S1x4096 .f32) (yg : FVec Ideal S128x512 .f32) (base : Nat) (hb : base = 0 ∨ base = 128)
    (hyg : ∀ (k : Fin 128) (r : Fin 512), yg (ix2 k r)
      = k0_pay3 (F := Ideal) v0 v3 (ix2 ⟨base + k.val, by have := k.isLt; omega⟩ r))
    (q : Fin 128) (o : Fin 4096) :
    groupOut yg (k0_pay4 v6) (k0_pay5 v8) (ix2 q o)
      = blockOut v0 v3 v6 v8 (ix3 0 ⟨base + q.val, by have := q.isLt; omega⟩ o) := by
  rw [groupOut_apply]
  show _ = (∑ r : Fin 512, deq (fun k => ∑ d : Fin 4096, v0 (ix3 0 (blockRow ⟨base + q.val, _⟩ k) d) * v3 (ix2 d r))
      (blockPos ⟨base + q.val, _⟩) * v6 (ix2 r o)) + v8 (ix2 0 o)
  have hpos : blockPos ⟨base + q.val, by have := q.isLt; omega⟩ = q :=
    Fin.ext (by show (base + q.val) % 128 = q.val; have := q.isLt; omega)
  have hrow : ∀ k : Fin 128, blockRow ⟨base + q.val, by have := q.isLt; omega⟩ k = ⟨base + k.val, by have := k.isLt; omega⟩ :=
    fun k => Fin.ext (by show (base + q.val) / 128 * 128 + k.val = base + k.val; have := q.isLt; omega)
  rw [hpos]
  have e4 : k0_pay4 (F := Ideal) v6 = v6 := shapeCast_self _ _
  have e5 : k0_pay5 (F := Ideal) v8 = v8 := shapeCast_self _ _
  rw [e4, e5]
  refine congrArg (· + v8 (ix2 0 o)) (Finset.sum_congr rfl fun r _ => ?_)
  refine congrArg (· * v6 (ix2 r o)) (congrArg (fun f => deq f q) (funext fun k => ?_))
  rw [hyg, pay3_apply, hrow]

/-- A group's 128 output rows with a leading unit axis put in front. -/
theorem unitRows_apply (w : FVec Ideal S128x4096 .f32) (z : Fin 1) (q : Fin 128) (o : Fin 4096) :
    shapeCast S1x128x4096 w shapeCasts_S128x4096_S1x128x4096 (ix3 z q o) = w (ix2 q o) := by
  refine (shapeCast_addUnit_apply _ w shapeCasts_S128x4096_S1x128x4096 (ix3 z q o)).trans (congrArg w ?_)
  funext a; match a with | ⟨0, _⟩ => rfl | ⟨1, _⟩ => rfl

/-- The piece written on rows 0 to 127 is the block's output there. -/
theorem firstPiece (x0 : Vec Ideal S1x256x4096 .f32) (x1 : Vec Ideal S4096x512 .bf16) (x2 : Vec Ideal S512x4096 .bf16)
    (x3 : Vec Ideal S1x4096 .f32) (x : S1x128x4096.Idx) :
    k0_pay1 (F := Ideal) (k0_pay6 x0 x1 x2 x3) x = blockOut x0 x1 x2 x3 (r0_4.emb x) := by
  obtain ⟨z, q, o, rfl⟩ : ∃ (z : Fin 1) (q : Fin 128) (o : Fin 4096), x = ix3 z q o := ⟨x 0, x 1, x 2, eq_ix3 x⟩
  show shapeCast S1x128x4096 (k0_pay6 (F := Ideal) x0 x1 x2 x3) shapeCasts_S128x4096_S1x128x4096 (ix3 z q o) = _
  rw [unitRows_apply, pay6_eq, groupOut_block x0 x1 x2 x3 _ 0 (Or.inl rfl) (fun k r => slice0_apply _ k r)]
  refine congrArg (blockOut x0 x1 x2 x3) (funext fun a => Fin.ext ?_)
  match a with
  | ⟨0, _⟩ => show 0 = 0 + 1 * z.val; omega
  | ⟨1, _⟩ => show 0 + q.val = 0 + 1 * q.val; omega
  | ⟨2, _⟩ => show o.val = 0 + 1 * o.val; omega

/-- The piece written on rows 128 to 255 is the block's output there. -/
theorem secondPiece (x0 : Vec Ideal S1x256x4096 .f32) (x1 : Vec Ideal S4096x512 .bf16) (x2 : Vec Ideal S512x4096 .bf16)
    (x3 : Vec Ideal S1x4096 .f32) (x : S1x128x4096.Idx) :
    k0_pay2 (F := Ideal) (k0_pay3 x0 x1) (k0_pay4 x2) (k0_pay5 x3) x = blockOut x0 x1 x2 x3 (r0_5.emb x) := by
  obtain ⟨z, q, o, rfl⟩ : ∃ (z : Fin 1) (q : Fin 128) (o : Fin 4096), x = ix3 z q o := ⟨x 0, x 1, x 2, eq_ix3 x⟩
  rw [pay2_eq, unitRows_apply, groupOut_block x0 x1 x2 x3 _ 128 (Or.inr rfl) (fun k r => slice128_apply _ k r)]
  refine congrArg (blockOut x0 x1 x2 x3) (funext fun a => Fin.ext ?_)
  match a with
  | ⟨0, _⟩ => show 0 = 0 + 1 * z.val; omega
  | ⟨1, _⟩ => show 128 + q.val = 128 + 1 * q.val; omega
  | ⟨2, _⟩ => show o.val = 0 + 1 * o.val; omega

theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl

/-- The two written pieces tile the block, and each is the block's output on its rows: the block IS that function. -/
theorem out0_4_eq (x0 : Vec Ideal S1x256x4096 .f32) (x1 : Vec Ideal S4096x512 .bf16) (x2 : Vec Ideal S512x4096 .bf16)
    (x3 : Vec Ideal S1x4096 .f32) : out0_4 (F := Ideal) x0 x1 x2 x3 = blockOut x0 x1 x2 x3 := by
  funext y
  unfold out0_4
  simp only [View.ld_unit_zero (S := S1x256x4096) zeros3, View.ld_unit_zero (S := S4096x512) zeros2,
    View.ld_unit_zero (S := S512x4096) zeros2, View.ld_unit_zero (S := S1x4096) zeros2]
  refine View.canon_apply_of_pieces (Val := Elt Ideal) (blockOut x0 x1 x2 x3) _ ?_ y (cover0_4 _ _ y)
  intro p hp x
  rcases List.mem_cons.mp hp with rfl | hp
  · exact secondPiece x0 x1 x2 x3 x
  · rcases List.mem_cons.mp hp with rfl | hp
    · exact firstPiece x0 x1 x2 x3 x
    · exact absurd hp List.not_mem_nil

/-- The block at grid point (bI, sI) — sequence bI, tokens sI·256 to sI·256 + 255 — computes the specification there:
    the block's group of row p is the group of token sI·256 + p, at the same place. The four hypotheses say what the
    input blocks hold: the point's 256 tokens, the two weights transposed, the bias as one row. -/
theorem blockOut_eq_out (X : (⟨3, ![4, 4096, 4096]⟩ : Shape).Idx → EReal) (WB : (⟨2, ![512, 4096]⟩ : Shape).Idx → EReal)
    (WA : (⟨2, ![4096, 512]⟩ : Shape).Idx → EReal) (B : (⟨1, ![4096]⟩ : Shape).Idx → EReal)
    (x0 : Vec Ideal S1x256x4096 .f32) (x1 : Vec Ideal S4096x512 .bf16) (x2 : Vec Ideal S512x4096 .bf16) (x3 : Vec Ideal S1x4096 .f32)
    (bI sI : Nat) (hb : bI < 4) (hs : sI < 16)
    (h0 : ∀ (p : Fin 256) (d : Fin 4096), x0 (ix3 0 p d) = X (ix3 ⟨bI, hb⟩ ⟨sI * 256 + p.val, by have := p.isLt; omega⟩ d))
    (h1 : ∀ (d : Fin 4096) (r : Fin 512), x1 (ix2 d r) = WB (ix2 r d))
    (h2 : ∀ (r : Fin 512) (o : Fin 4096), x2 (ix2 r o) = WA (ix2 o r))
    (h3 : ∀ o : Fin 4096, x3 (ix2 0 o) = B (ix1 o))
    (z : Fin 1) (p : Fin 256) (o : Fin 4096) :
    blockOut x0 x1 x2 x3 (ix3 z p o) = out X WB WA B (ix3 ⟨bI, hb⟩ ⟨sI * 256 + p.val, by have := p.isLt; omega⟩ o) := by
  show (∑ r : Fin 512, deq (fun k => ∑ d : Fin 4096, x0 (ix3 0 (blockRow p k) d) * x1 (ix2 d r)) (blockPos p) * x2 (ix2 r o))
      + x3 (ix2 0 o)
    = (∑ r : Fin 512, deq (fun k => down X WB ⟨bI, hb⟩ (groupTok ⟨sI * 256 + p.val, _⟩ k) r) (groupPos ⟨sI * 256 + p.val, _⟩)
        * WA (ix2 o r)) + B (ix1 o)
  have hpos : groupPos ⟨sI * 256 + p.val, by have := p.isLt; omega⟩ = blockPos p :=
    Fin.ext (by show (sI * 256 + p.val) % 128 = p.val % 128; omega)
  have htok : ∀ k : Fin 128, groupTok ⟨sI * 256 + p.val, by have := p.isLt; omega⟩ k
      = ⟨sI * 256 + (blockRow p k).val, by have := (blockRow p k).isLt; omega⟩ :=
    fun k => Fin.ext (by show (sI * 256 + p.val) / 128 * 128 + k.val = sI * 256 + (p.val / 128 * 128 + k.val); omega)
  rw [hpos, h3]
  refine congrArg (· + B (ix1 o)) (Finset.sum_congr rfl fun r _ => ?_)
  rw [h2]
  refine congrArg (· * WA (ix2 o r)) (congrArg (fun f => deq f (blockPos p)) (funext fun k => ?_))
  rw [htok]
  show _ = ∑ d : Fin 4096, X (ix3 ⟨bI, hb⟩ ⟨sI * 256 + (blockRow p k).val, _⟩ d) * WB (ix2 r d)
  exact Finset.sum_congr rfl fun d _ => by rw [h0, h1]

end Cert.KernelBody

end
-- ==== Proof.KernelHost.lean ====
/-
  What the kernel program's host operations leave in the three arrays its region reads besides the input: the
  down-projection's weight transposed, the up-projection's weight transposed, and the bias as one row. Over the
  extended reals the conversion to the narrower format is the identity, so each entry is an entry of an argument array.
-/
import proofs.«176930_j23596550324371_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelHost

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The first weight after the host operations: the argument transposed, then converted. -/
theorem wbt_eq (c : Dev nD) :
    @Eq (S4096x512.Idx → EReal) (V m c main_v1)
      (truncf (F := Ideal) .bf16 (transpose S4096x512 [1, 0] (m ((c : Thread nD τ).loc main_arg1)) transposes_S512x4096_S4096x512_1_0) bitsLt_bf16_f32) := by
  dsimp only [Gen.V, Gen.hostOps0]
  after_results

/-- Entry (d, r) of the transposed first weight is entry (r, d) of the argument. -/
theorem wbt_apply (c : Dev nD) (d : Fin 4096) (r : Fin 512) :
    (V m c main_v1 : S4096x512.Idx → EReal) (ix2 d r) = (m ((c : Thread nD τ).loc main_arg1) : S512x4096.Idx → EReal) (ix2 r d) := by
  refine (congrFun (wbt_eq m c) (ix2 d r)).trans ?_
  refine (truncf_apply _ bitsLt_bf16_f32 (ix2 d r)).trans ?_
  exact transpose_apply [1, 0] _ transposes_S512x4096_S4096x512_1_0 (ix2 d r) (ix2 r d) (fun a => match a with
    | ⟨0, _⟩ => rfl
    | ⟨1, _⟩ => rfl)

/-- The second weight after the host operations: the argument transposed, then converted. -/
theorem wat_eq (c : Dev nD) :
    @Eq (S512x4096.Idx → EReal) (V m c main_v3)
      (truncf (F := Ideal) .bf16 (transpose S512x4096 [1, 0] (m ((c : Thread nD τ).loc main_arg2)) transposes_S4096x512_S512x4096_1_0) bitsLt_bf16_f32) := by
  dsimp only [Gen.V, Gen.hostOps0]
  after_results

/-- Entry (r, o) of the transposed second weight is entry (o, r) of the argument. -/
theorem wat_apply (c : Dev nD) (r : Fin 512) (o : Fin 4096) :
    (V m c main_v3 : S512x4096.Idx → EReal) (ix2 r o) = (m ((c : Thread nD τ).loc main_arg2) : S4096x512.Idx → EReal) (ix2 o r) := by
  refine (congrFun (wat_eq m c) (ix2 r o)).trans ?_
  refine (truncf_apply _ bitsLt_bf16_f32 (ix2 r o)).trans ?_
  exact transpose_apply [1, 0] _ transposes_S4096x512_S512x4096_1_0 (ix2 r o) (ix2 o r) (fun a => match a with
    | ⟨0, _⟩ => rfl
    | ⟨1, _⟩ => rfl)

/-- The bias after the host operations: the argument viewed as one row. -/
theorem biasRow_eq (c : Dev nD) :
    @Eq (S1x4096.Idx → EReal) (V m c main_v4)
      (shapeCast S1x4096 (m ((c : Thread nD τ).loc main_arg3) : S4096.Idx → EReal) shapeCasts_S4096_S1x4096) := by
  dsimp only [Gen.V, Gen.hostOps0]
  after_results
  rfl

/-- Entry (0, o) of the bias row is entry o of the argument. -/
theorem biasRow_apply (c : Dev nD) (o : Fin 4096) :
    (V m c main_v4 : S1x4096.Idx → EReal) (ix2 0 o) = (m ((c : Thread nD τ).loc main_arg3) : S4096.Idx → EReal) (ix1 o) := by
  refine (congrFun (biasRow_eq m c) (ix2 0 o)).trans ?_
  refine shapeCast_apply _ shapeCasts_S4096_S1x4096 (ix2 0 o) (ix1 o) ?_
  rw [Shape.rowMajor_val_one, Shape.rowMajor_val_two]
  show o.val = 0 * 4096 + o.val
  omega

end Cert.KernelHost

end
-- ==== Proof.KernelValue.lean ====
/-
  The kernel's result array after the run is the specification of the four argument arrays.

  The grid has a point per sequence b and per run of 256 tokens: point (b, j) reads tokens 256·j to 256·j + 255 of sequence
  b, every point reads both transposed weights and the bias row whole, and writes the same rows of the result. A run of
  256 tokens is two whole groups of 128, so the block's groups are the array's groups. The 64 blocks tile the result.
-/
import proofs.«176930_j23596550324371_1_alg».proof.Proof.KernelBlock
import proofs.«176930_j23596550324371_1_alg».proof.Proof.Gen.KernelIdeal.Value
import proofs.«176930_j23596550324371_1_alg».proof.Proof.KernelHost

set_option maxRecDepth 16384

noncomputable section

namespace Cert.KernelValue

open Idealize.ShloMosaic Idealize.ShloMosaic.ValueIdx Idealize.ShloMosaic.TcCoe Idealize.SL.Sem
open Cert.KernelIdeal Cert.KernelIdeal.Gen Cert.KernelBody Cert.GroupQuant
open Idealize.ShloMosaic.Pipeline (Dat)

variable (m : (ℓ : Loc nD τ sig) → Buf (Elt Ideal) ℓ) (ρ : Dev nD → PrngReg)

/-- The result array: the specification of the four arguments as launched. -/
def result (c : Dev nD) : S4x4096x4096.Idx → EReal :=
  out (m ((c : Thread nD τ).loc main_arg0)) (m ((c : Thread nD τ).loc main_arg1)) (m ((c : Thread nD τ).loc main_arg2))
    (m ((c : Thread nD τ).loc main_arg3))

/-- The index maps over the 64 grid points: the token block moves with the result block, the weights and the bias stay. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 4 ∧ win0_4.index t (1 : Fin 3) < 16 ∧ win0_4.index t (2 : Fin 3) = 0 :=
  (by decide +kernel : ∀ t : Fin grid0.N, _)

/-- Every pair (sequence, run of 256 tokens) is some point's. -/
theorem idx_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

/-- What point t writes back is its block of the result. -/
theorem flushed_eq (c : Dev nD) (t : Fin cfg0.N) :
    (dats m 0 c).flushed 4 t = ((cfg0.win 4).blk t).view.read (Elt Ideal) (result m c) := by
  rw [Cert.KernelIdeal.Value.flushed4, out0_4_eq]
  obtain ⟨e00, e01, e02, e10, e11, e20, e21, e30, e31, hb, hs, e42⟩ := idx_facts t
  funext y
  obtain ⟨z, p, o, rfl⟩ : ∃ (z : Fin 1) (p : Fin 256) (o : Fin 4096), y = ix3 z p o := ⟨y 0, y 1, y 2, eq_ix3 y⟩
  show blockOut (iblk m c 0 t) (iblk m c 1 t) (iblk m c 2 t) (iblk m c 3 t) (ix3 z p o)
    = result m c (((cfg0.win 4).blk t).view.emb (ix3 z p o))
  refine (blockOut_eq_out (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (win0_4.index t (0 : Fin 3)) (win0_4.index t (1 : Fin 3)) hb hs
    ?_ ?_ ?_ ?_ z p o).trans ?_
  · intro p d
    show V m c main_arg0 (((cfg0.win 0).blk t).view.emb (ix3 0 p d)) = _
    refine (congrFun (V_main_arg0 m c) _).trans (congrArg _ (funext fun a => Fin.ext ?_))
    match a with
    | ⟨0, _⟩ => show win0_0.index t (0 : Fin 3) * 1 + 1 * 0 = win0_4.index t (0 : Fin 3); omega
    | ⟨1, _⟩ => show win0_0.index t (1 : Fin 3) * 256 + 1 * p.val = win0_4.index t (1 : Fin 3) * 256 + p.val; omega
    | ⟨2, _⟩ => show win0_0.index t (2 : Fin 3) * 4096 + 1 * d.val = d.val; omega
  · intro d r
    show V m c main_v1 (((cfg0.win 1).blk t).view.emb (ix2 d r)) = _
    have e : ((cfg0.win 1).blk t).view.emb (ix2 d r) = ix2 d r := funext fun a => Fin.ext (by
      match a with
      | ⟨0, _⟩ => show win0_1.index t (0 : Fin 2) * 4096 + 1 * d.val = d.val; omega
      | ⟨1, _⟩ => show win0_1.index t (1 : Fin 2) * 512 + 1 * r.val = r.val; omega)
    rw [e]
    exact Cert.KernelHost.wbt_apply m c d r
  · intro r o
    show V m c main_v3 (((cfg0.win 2).blk t).view.emb (ix2 r o)) = _
    have e : ((cfg0.win 2).blk t).view.emb (ix2 r o) = ix2 r o := funext fun a => Fin.ext (by
      match a with
      | ⟨0, _⟩ => show win0_2.index t (0 : Fin 2) * 512 + 1 * r.val = r.val; omega
      | ⟨1, _⟩ => show win0_2.index t (1 : Fin 2) * 4096 + 1 * o.val = o.val; omega)
    rw [e]
    exact Cert.KernelHost.wat_apply m c r o
  · intro o
    show V m c main_v4 (((cfg0.win 3).blk t).view.emb (ix2 0 o)) = _
    have e : ((cfg0.win 3).blk t).view.emb (ix2 0 o) = ix2 0 o := funext fun a => Fin.ext (by
      match a with
      | ⟨0, _⟩ => show win0_3.index t (0 : Fin 2) * 1 + 1 * 0 = 0; omega
      | ⟨1, _⟩ => show win0_3.index t (1 : Fin 2) * 4096 + 1 * o.val = o.val; omega)
    rw [e]
    exact Cert.KernelHost.biasRow_apply m c o
  · refine congrArg (result m c) (funext fun a => Fin.ext ?_)
    have hz : z.val = 0 := by have := z.isLt; omega
    match a with
    | ⟨0, _⟩ => show win0_4.index t (0 : Fin 3) = win0_4.index t (0 : Fin 3) * 1 + 1 * z.val; omega
    | ⟨1, _⟩ => show win0_4.index t (1 : Fin 3) * 256 + p.val = win0_4.index t (1 : Fin 3) * 256 + 1 * p.val; omega
    | ⟨2, _⟩ => show o.val = win0_4.index t (2 : Fin 3) * 4096 + 1 * o.val; omega

/-- An entry of the result is in point t's block iff each coordinate is in the block's range on its axis. -/
theorem mem_blk (t : Fin cfg0.N) (i : S4x4096x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v5).slice (win0_4.rect t)).set ↔ _
  rw [View.set_slice_whole, Rect.mem_set_unit]
  exact Iff.rfl

/-- Every entry of the result lies in some point's block: entry (b, s, o) in that of point (b, s / 256). -/
theorem cover (i : S4x4096x4096.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 4096 := (i 2).isLt
  obtain ⟨t, ht⟩ := idx_onto ⟨(i 0).val, h0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

/-- So the result array ends holding the specification. -/
theorem final (c : Dev nD) : (dats m 0 c).arrAt 4 cfg0.N = result m c :=
  (dats m 0 c).arrAt_eq_of_cover 4 (result m c) (fun t _ => flushed_eq m c t) cover

/-- The run, read: the result at the specification of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.KernelIdeal.Value.run_blocks m ρ)

end Cert.KernelValue

end
-- ==== Proof.RefValue.lean ====
/-
  The reference program computes the specification. Read stage by stage at an index: the first contraction is the
  down-projection; the transpose and reshape put token 128 g + k of channel r at (b, r, g, k); the two reductions over
  the last axis are the group's minimum and maximum; the elementwise stages are the quantization to four levels and
  back; the second reshape and transpose return to token order, where token s sits in group s / 128 at place s % 128;
  the last contraction and the broadcast bias are the up-projection.
-/
import proofs.«176930_j23596550324371_1_alg».proof.Proof.Spec
import proofs.«176930_j23596550324371_1_alg».proof.Proof.Gen.ReferenceIdeal.Read
import Idealize.ShloMosaic.PureOps.Reduce
import Idealize.ShloMosaic.PureOps.Ideal.Laws
import Idealize.ShloMosaic.Lib.ValueIdx

noncomputable section

namespace Cert.RefValue

open Idealize.ShloMosaic Idealize.ShloMosaic.ValueIdx Cert.ReferenceIdeal Cert.ReferenceIdeal.Read Cert.GroupQuant

/-- Token k of the g-th group of 128 consecutive tokens. -/
def tok (g : Fin 32) (k : Fin 128) : Fin 4096 :=
  ⟨g.val * 128 + k.val, by have := g.isLt; have := k.isLt; omega⟩

/-- The last axis of the grouped array is the one the two reductions drop. -/
theorem red : S4x512x32x128.Reduces [3] S4x512x32 := by decide

/-- The grouped index over (b, r, g) with k put on the dropped axis. -/
theorem lift_eq (b : Fin 4) (r : Fin 512) (g : Fin 32) (k : Fin 128) :
    red.lift (ix3 b r g) k = ix4 b r g k := funext fun a => Fin.ext (by
  match a with
  | ⟨0, _⟩ => rfl
  | ⟨1, _⟩ => rfl
  | ⟨2, _⟩ => rfl
  | ⟨3, _⟩ => rfl)

variable (x0 : (⟨S4x4096x4096, .f32⟩ : BufTy).Contents (Elt Ideal)) (x1 : (⟨S512x4096, .f32⟩ : BufTy).Contents (Elt Ideal))

/-- The first contraction is the down-projection. -/
theorem v0_eq (b : Fin 4) (s : Fin 4096) (r : Fin 512) :
    val_main_v0 (F := Ideal) x0 x1 (ix3 b s r) = down x0 x1 b s r := by
  rw [val_main_v0_apply]
  unfold down
  refine Finset.sum_congr rfl fun d _ => ?_
  have el : lidx_main_v0 (ix3 b s r) d = ix3 b s d := funext fun a => Fin.ext (by
    match a with
    | ⟨0, _⟩ => rfl
    | ⟨1, _⟩ => rfl
    | ⟨2, _⟩ => rfl)
  have er : ridx_main_v0 (ix3 b s r) d = ix2 r d := funext fun a => Fin.ext (by
    match a with
    | ⟨0, _⟩ => rfl
    | ⟨1, _⟩ => rfl)
  rw [el, er]

/-- Swapping the token and channel axes and cutting the tokens into 32 groups of 128: entry (b, r, g, k) is the
    down-projection of token 128 g + k on channel r. -/
theorem v2_eq (b : Fin 4) (r : Fin 512) (g : Fin 32) (k : Fin 128) :
    val_main_v2 (F := Ideal) x0 x1 (ix4 b r g k) = down x0 x1 b (tok g k) r := by
  rw [val_main_v2_apply, val_main_v1_apply]
  have e : idx_main_v1 (idx_main_v2 (ix4 b r g k)) = ix3 b (tok g k) r := funext fun a => Fin.ext (by
    have := b.isLt; have := r.isLt; have := g.isLt; have := k.isLt
    match a with
    | ⟨0, _⟩ => show (((b.val * 512 + r.val) * 32 + g.val) * 128 + k.val) / 2097152 = b.val; omega
    | ⟨1, _⟩ => show (((b.val * 512 + r.val) * 32 + g.val) * 128 + k.val) % 4096 = g.val * 128 + k.val; omega
    | ⟨2, _⟩ => show (((b.val * 512 + r.val) * 32 + g.val) * 128 + k.val) / 4096 % 512 = r.val; omega)
  rw [e, v0_eq]

/-- The 128 values of group g of sequence b on channel r. -/
def grp (b : Fin 4) (r : Fin 512) (g : Fin 32) : Fin 128 → EReal := fun k => down x0 x1 b (tok g k) r

/-- Along the dropped axis the grouped array reads the group's values. -/
theorem v2_lift (b : Fin 4) (r : Fin 512) (g : Fin 32) :
    (val_main_v2 (F := Ideal) x0 x1 ∘ red.lift (ix3 b r g)) = grp x0 x1 b r g := funext fun (k : Fin 128) =>
  (congrArg (val_main_v2 (F := Ideal) x0 x1) (lift_eq b r g k)).trans (v2_eq x0 x1 b r g k)

/-- The min-reduce is the group's smallest value. -/
theorem v3_eq (b : Fin 4) (r : Fin 512) (g : Fin 32) :
    val_main_v3 (F := Ideal) x0 x1 (ix3 b r g) = lo (grp x0 x1 b r g) := by
  unfold val_main_v3
  refine (Host.reduce_eq_fold_single (FloatOps.minimumf (F := Ideal) (φ := .f32)) (val_main_v2 (F := Ideal) x0 x1)
    (val_main_cst (F := Ideal)) Gen.reducesTo_S4x512x32x128_S4x512x32_d3 red Gen.h_S_ (ix3 b r g)).trans ?_
  rw [v2_lift]; rfl

/-- The max-reduce is the group's largest value. -/
theorem v5_eq (b : Fin 4) (r : Fin 512) (g : Fin 32) :
    val_main_v5 (F := Ideal) x0 x1 (ix3 b r g) = hi (grp x0 x1 b r g) := by
  unfold val_main_v5
  refine (Host.reduce_eq_fold_single (FloatOps.maximumf (F := Ideal) (φ := .f32)) (val_main_v2 (F := Ideal) x0 x1)
    (val_main_cst_0 (F := Ideal)) Gen.reducesTo_S4x512x32x128_S4x512x32_d3 red Gen.h_S_ (ix3 b r g)).trans ?_
  rw [v2_lift]; rfl

/-- The broadcast minimum: entry (b, r, g, 0) is the group's smallest value. -/
theorem v4_eq (b : Fin 4) (r : Fin 512) (g : Fin 32) (z : Fin 1) :
    val_main_v4 (F := Ideal) x0 x1 (ix4 b r g z) = lo (grp x0 x1 b r g) := by
  have e : idx_main_v4 (ix4 b r g z) = ix3 b r g := funext fun a => Fin.ext (by
    match a with
    | ⟨0, _⟩ => rfl
    | ⟨1, _⟩ => rfl
    | ⟨2, _⟩ => rfl)
  rw [val_main_v4_apply, e, v3_eq]

/-- The broadcast maximum: entry (b, r, g, 0) is the group's largest value. -/
theorem v6_eq (b : Fin 4) (r : Fin 512) (g : Fin 32) (z : Fin 1) :
    val_main_v6 (F := Ideal) x0 x1 (ix4 b r g z) = hi (grp x0 x1 b r g) := by
  have e : idx_main_v6 (ix4 b r g z) = ix3 b r g := funext fun a => Fin.ext (by
    match a with
    | ⟨0, _⟩ => rfl
    | ⟨1, _⟩ => rfl
    | ⟨2, _⟩ => rfl)
  rw [val_main_v6_apply, e, v5_eq]

/-- The scale: a third of the group's range, at least ε. -/
theorem v11_eq (b : Fin 4) (r : Fin 512) (g : Fin 32) (z : Fin 1) :
    val_main_v11 (F := Ideal) x0 x1 (ix4 b r g z) = step (grp x0 x1 b r g) := by
  rw [val_main_v11_apply, val_main_v9_apply, val_main_v7_apply, v6_eq, v4_eq, val_main_v8_apply, val_main_v10_apply,
    val_main_cst_1_apply, val_main_cst_2_apply]
  rfl

/-- The quantized and dequantized entry (b, r, g, p). -/
theorem v21_eq (b : Fin 4) (r : Fin 512) (g : Fin 32) (p : Fin 128) :
    val_main_v21 (F := Ideal) x0 x1 (ix4 b r g p) = deq (grp x0 x1 b r g) p := by
  have e12 : idx_main_v12 (ix4 b r g p) = ix4 b r g (0 : Fin 1) := funext fun a => Fin.ext (by
    match a with
    | ⟨0, _⟩ => rfl
    | ⟨1, _⟩ => rfl
    | ⟨2, _⟩ => rfl
    | ⟨3, _⟩ => rfl)
  have e14 : idx_main_v14 (ix4 b r g p) = ix4 b r g (0 : Fin 1) := funext fun a => Fin.ext (by
    match a with
    | ⟨0, _⟩ => rfl
    | ⟨1, _⟩ => rfl
    | ⟨2, _⟩ => rfl
    | ⟨3, _⟩ => rfl)
  have e18 : idx_main_v18 (ix4 b r g p) = ix4 b r g (0 : Fin 1) := funext fun a => Fin.ext (by
    match a with
    | ⟨0, _⟩ => rfl
    | ⟨1, _⟩ => rfl
    | ⟨2, _⟩ => rfl
    | ⟨3, _⟩ => rfl)
  have e20 : idx_main_v20 (ix4 b r g p) = ix4 b r g (0 : Fin 1) := funext fun a => Fin.ext (by
    match a with
    | ⟨0, _⟩ => rfl
    | ⟨1, _⟩ => rfl
    | ⟨2, _⟩ => rfl
    | ⟨3, _⟩ => rfl)
  rw [val_main_v21_apply, val_main_v19_apply, val_main_v20_apply, e20, v4_eq, val_main_v18_apply, e18, v11_eq,
    val_main_v17_apply, val_main_call1_v4_apply, val_main_call1_v3_apply, val_main_c_3_apply,
    val_main_call1_v2_apply, val_main_call1_v1_apply, val_main_call1_v0_apply, val_main_c_apply,
    val_main_v16_apply, val_main_v15_apply, val_main_v13_apply, val_main_v14_apply, e14, v11_eq,
    val_main_v12_apply, e12, v4_eq, v2_eq]
  show min (((3#32 : BitVec 32).toInt : ℝ) : EReal)
      (max (((0#32 : BitVec 32).toInt : ℝ) : EReal)
        (Ideal.liftRound Ideal.roundHalfEven (Ideal.div (grp x0 x1 b r g p - lo (grp x0 x1 b r g)) (step (grp x0 x1 b r g)))))
      * step (grp x0 x1 b r g) + lo (grp x0 x1 b r g) = _
  rw [three_eq, zero_eq]
  rfl

/-- Back in token order: entry (b, s, r) is token s's value on channel r, quantized within its group. -/
theorem v23_eq (b : Fin 4) (s : Fin 4096) (r : Fin 512) :
    val_main_v23 (F := Ideal) x0 x1 (ix3 b s r)
      = deq (fun k => down x0 x1 b (groupTok s k) r) (groupPos s) := by
  have e : idx_main_v22 (idx_main_v23 (ix3 b s r))
      = ix4 b r (⟨s.val / 128, by have := s.isLt; omega⟩ : Fin 32) (groupPos s) := funext fun a => Fin.ext (by
    have := b.isLt; have := r.isLt; have := s.isLt
    match a with
    | ⟨0, _⟩ => show ((b.val * 512 + r.val) * 4096 + s.val) / 2097152 = b.val; omega
    | ⟨1, _⟩ => show ((b.val * 512 + r.val) * 4096 + s.val) / 4096 % 512 = r.val; omega
    | ⟨2, _⟩ => show ((b.val * 512 + r.val) * 4096 + s.val) / 128 % 32 = s.val / 128; omega
    | ⟨3, _⟩ => show ((b.val * 512 + r.val) * 4096 + s.val) % 128 = s.val % 128; omega)
  rw [val_main_v23_apply, val_main_v22_apply, e, v21_eq]
  rfl

/-- The reference program's last stage, as a function of its four argument arrays, is the specification. -/
theorem ref_eq (x0 : (⟨S4x4096x4096, .f32⟩ : BufTy).Contents (Elt Ideal)) (x1 : (⟨S512x4096, .f32⟩ : BufTy).Contents (Elt Ideal))
    (x2 : (⟨S4096x512, .f32⟩ : BufTy).Contents (Elt Ideal)) (x3 : (⟨S4096, .f32⟩ : BufTy).Contents (Elt Ideal)) :
    Cert.ReferenceIdeal.Read.val_main_v27 (F := Ideal) x0 x1 x2 x3 = Cert.GroupQuant.out x0 x1 x2 x3 := by
  funext i
  obtain ⟨b, s, o, rfl⟩ : ∃ b s o, i = ix3 b s o := ⟨i 0, i 1, i 2, eq_ix3 i⟩
  have e26 : idx_main_v25 (idx_main_v26 (ix3 b s o)) = ix1 o := funext fun a => Fin.ext (by
    match a with
    | ⟨0, _⟩ => rfl)
  rw [val_main_v27_apply, val_main_v26_apply, val_main_v25_apply, e26, val_main_v24_apply]
  show (∑ k : Fin 512, val_main_v23 (F := Ideal) x0 x1 (lidx_main_v24 (ix3 b s o) k) * x2 (ridx_main_v24 (ix3 b s o) k))
      + x3 (ix1 o) = _
  unfold out
  refine congrArg (· + x3 (ix1 o)) (Finset.sum_congr rfl fun k _ => ?_)
  have el : lidx_main_v24 (ix3 b s o) k = ix3 b s k := funext fun a => Fin.ext (by
    match a with
    | ⟨0, _⟩ => rfl
    | ⟨1, _⟩ => rfl
    | ⟨2, _⟩ => rfl)
  have er : ridx_main_v24 (ix3 b s o) k = ix2 o k := funext fun a => Fin.ext (by
    match a with
    | ⟨0, _⟩ => rfl
    | ⟨1, _⟩ => rfl)
  rw [el, er, v23_eq]

end Cert.RefValue

end
-- ==== Proof.lean ====
/-
  The certificate: a fused kernel for a low-rank layer with 2-bit group quantization in the middle, against its plain
  reference, over the extended reals.

  Both programs compute one function of the four arguments (Proof/Spec.lean): project each token down to 512
  channels, quantize each channel's values to four levels within every group of 128 consecutive tokens (the group's own
  minimum and range give the offset and the step), project up to 4096 features and add the bias. The kernel works on
  blocks of 256 tokens, two whole groups, with the weights transposed beforehand; the reference swaps the token and
  channel axes and cuts the tokens into groups by a reshape. The operations and their order are the same on both sides,
  entry by entry, so no law of the extended reals beyond reindexing is used and the inputs' finiteness is never opened.

  The kernel's side is Proof/KernelValue.lean (each grid point writes its block of the specification, and the blocks
  tile the result), over Proof/KernelBlock.lean, Proof/KernelBody.lean, Proof/KernelDots.lean and Proof/KernelHost.lean;
  the reference's side is Proof/RefValue.lean. The three frames are the generated runs; the idealization rewrote no
  operation, so there is nothing to preserve.
-/
import proofs.«176930_j23596550324371_1_alg».proof.Defs
import proofs.«176930_j23596550324371_1_alg».proof.Proof.Gen.Kernel
import proofs.«176930_j23596550324371_1_alg».proof.Proof.Gen.Kernel.Frame
import proofs.«176930_j23596550324371_1_alg».proof.Proof.Gen.KernelIdeal
import proofs.«176930_j23596550324371_1_alg».proof.Proof.Gen.KernelIdeal.Frame
import proofs.«176930_j23596550324371_1_alg».proof.Proof.Gen.KernelIdeal.Value
import proofs.«176930_j23596550324371_1_alg».proof.Proof.Gen.ReferenceIdeal
import proofs.«176930_j23596550324371_1_alg».proof.Proof.Gen.ReferenceIdeal.Run
import proofs.«176930_j23596550324371_1_alg».proof.Proof.Gen.ReferenceIdeal.Read
import proofs.«176930_j23596550324371_1_alg».proof.Proof.Gen.Pre_finite_inputs
import proofs.«176930_j23596550324371_1_alg».proof.Proof.KernelValue
import proofs.«176930_j23596550324371_1_alg».proof.Proof.RefValue
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and its arguments are never written. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, both programs end with the specification of those arguments in their result. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefValue.ref_eq, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
